-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1600000 : S_.BroadcastsInDim S1600000 (![] : Fin 0 → Fin S1600000.rank)
  reducesTo_S1600000_S_d0 : S1600000.ReducesTo [0] S_

variable [Facts]

def fn_part1 {F : FTy → Type} [FloatOps F] (main_v13 : IVec S_ 1) (main_v16 : IVec S1600000 1) : IVec S_ 1 :=
  let main_c_5 : IVec S_ 1 := constantI S_ 1 1#1
  let main_v17 : IVec S_ 1 := (fun x v => Host.reduce IntOp.andi x v reducesTo_S1600000_S_d0 h_S_) main_v16 main_c_5
  let main_v18 : IVec S_ 1 := andi main_v13 main_v17
  main_v18

def fn {F : FTy → Type} [FloatOps F] (main_arg0 : FVec F S100000x128 .f32) (main_arg1 : FVec F S128x128 .f32) (main_arg2 : FVec F S128 .f32) (main_arg3 : IVec S1600000 32) (main_arg4 : IVec S1600000 32) (main_arg5 : FVec F S1600000 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S1600000 .f32 := Host.absf main_arg5
  let main_cst_4 : FVec F S_ .f32 := constant S_ .f32 0x7F800000#32
  let main_v15 : FVec F S1600000 .f32 := broadcastInDim S1600000 ![] bcast_S_S1600000 main_cst_4
  let main_v16 : IVec S1600000 1 := cmpf .olt main_v14 main_v15
  fn_part1 (F := F) main_v13 main_v16
-- ==== Kernel.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S5000x128 : Shape := ⟨2, ![5000, 128]⟩
abbrev S_ : Shape := ⟨0, ![]⟩
abbrev S1600000x1 : Shape := ⟨2, ![1600000, 1]⟩
abbrev S1600000x128 : Shape := ⟨2, ![1600000, 128]⟩
abbrev S8000x128 : Shape := ⟨2, ![8000, 128]⟩
abbrev S8000x1 : Shape := ⟨2, ![8000, 1]⟩
abbrev S1x128 : Shape := ⟨2, ![1, 128]⟩

abbrev nBuf : Space → Nat
  | .hbm => 23
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S1600000, .i32⟩
  | .hbm, ⟨4, _⟩ => ⟨S1600000, .i32⟩
  | .hbm, ⟨5, _⟩ => ⟨S1600000, .f32⟩
  | .hbm, ⟨6, _⟩ => ⟨S100000x128, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .f32⟩
  | .hbm, ⟨16, _⟩ => ⟨S1600000x1, .f32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | .hbm, ⟨22, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S8000x128, .f32⟩
  | .local _ .vmem, ⟨6, _⟩ => ⟨S8000x128, .f32⟩
  | .local _ .vmem, ⟨7, _⟩ => ⟨S8000x1, .f32⟩
  | .local _ .vmem, ⟨8, _⟩ => ⟨S8000x1, .f32⟩
  | .local _ .vmem, ⟨9, _⟩ => ⟨S8000x128, .f32⟩
  | .local _ .vmem, ⟨10, _⟩ => ⟨S8000x128, .f32⟩
  | .local _ .vmem, ⟨11, _⟩ => ⟨S5000x128, .f32⟩
  | .local _ .vmem, ⟨12, _⟩ => ⟨S5000x128, .f32⟩
  | .local _ .vmem, ⟨13, _⟩ => ⟨S128, .f32⟩
  | .local _ .vmem, ⟨14, _⟩ => ⟨S5000x128, .f32⟩
  | .local _ .vmem, ⟨15, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  shapeCasts_S1600000_S1600000x1 : S1600000.ShapeCasts S1600000x1
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  broadcasts_S8000x1_S8000x128 : S8000x1.Broadcasts S8000x128
  bcast_S_S100000x128 : S_.BroadcastsInDim S100000x128 (![] : Fin 0 → Fin S100000x128.rank)
  shapeCasts_S5000x128_S5000x128 : S5000x128.ShapeCasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x128.size a ≤ S1600000x128.size a
  hwx1_0 : ∀ i : grid1.Coords, EltTy.bits .f32 = 32 ∨ (Rect.block (s := S1600000x128) S8000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x1.size a ≤ S1600000x1.size a
  hwx1_1 : ∀ i : grid1.Coords, EltTy.bits .f32 = 32 ∨ (Rect.block (s := S1600000x1) S8000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x128.size a ≤ S1600000x128.size a
  hwx1_2 : ∀ i : grid1.Coords, EltTy.bits .f32 = 32 ∨ (Rect.block (s := S1600000x128) S8000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128.size a ≤ S128.size a
  hwx2_1 : ∀ i : grid2.Coords, EltTy.bits .f32 = 32 ∨ (Rect.block (s := S128) S128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v7) S8000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S8000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S8000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v12) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v13) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩

abbrev nBuf : Space → Nat
  | .hbm => 26
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S1600000, .i32⟩
  | .hbm, ⟨4, _⟩ => ⟨S1600000, .i32⟩
  | .hbm, ⟨5, _⟩ => ⟨S1600000, .f32⟩
  | .hbm, ⟨6, _⟩ => ⟨S100000x128, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .f32⟩
  | .hbm, ⟨16, _⟩ => ⟨S1600000x1, .f32⟩
  | .hbm, ⟨17, _⟩ => ⟨S1600000x128, .f32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S1x128, .f32⟩
  | .hbm, ⟨24, _⟩ => ⟨S100000x128, .f32⟩
  | .hbm, ⟨25, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.LibDotRead.lean ====
/- A matrix product's contraction sum re-indexed by the contracted coordinate: for the product of an m x k by a
   k x n matrix, and for the product of the transpose of a k x m matrix by a k x n matrix. -/
import Idealize.ShloMosaic.Lib.ValueIdx
import Idealize.ShloMosaic.PureOps.Ideal.Laws

noncomputable section

open scoped BigOperators

namespace Cert.DotRead

open Idealize.ShloMosaic Idealize.ShloMosaic.ValueIdx

/-- Rows by columns: the contraction at (a, b) runs over A (a, c) * B (c, b). -/
theorem sum_contr_plain {m k n : Nat}
    (w : DotDims.WF ⟨2, ![m, k]⟩ ⟨2, ![k, n]⟩ ⟨2, ![m, n]⟩ [1] [0] [0] [1] [] [])
    (A : (⟨2, ![m, k]⟩ : Shape).Idx → EReal) (B : (⟨2, ![k, n]⟩ : Shape).Idx → EReal) (a : Fin m) (b : Fin n) :
    ∑ q : (⟨[1], [0], [0], [1], [], [], w⟩ : DotDims ⟨2, ![m, k]⟩ ⟨2, ![k, n]⟩ ⟨2, ![m, n]⟩).contr.Idx,
        A ((⟨[1], [0], [0], [1], [], [], w⟩ : DotDims ⟨2, ![m, k]⟩ ⟨2, ![k, n]⟩ ⟨2, ![m, n]⟩).lhsIdx (ix2 a b) q)
          * B ((⟨[1], [0], [0], [1], [], [], w⟩ : DotDims ⟨2, ![m, k]⟩ ⟨2, ![k, n]⟩ ⟨2, ![m, n]⟩).rhsIdx (ix2 a b) q)
      = ∑ c : Fin k, A (ix2 a c) * B (ix2 c b) := by
  rw [← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The left operand transposed: the contraction at (a, b) runs over A (c, a) * B (c, b). -/
theorem sum_contr_lhsT {m k n : Nat}
    (w : DotDims.WF ⟨2, ![k, m]⟩ ⟨2, ![k, n]⟩ ⟨2, ![m, n]⟩ [0] [0] [1] [1] [] [])
    (A : (⟨2, ![k, m]⟩ : Shape).Idx → EReal) (B : (⟨2, ![k, n]⟩ : Shape).Idx → EReal) (a : Fin m) (b : Fin n) :
    ∑ q : (⟨[0], [0], [1], [1], [], [], w⟩ : DotDims ⟨2, ![k, m]⟩ ⟨2, ![k, n]⟩ ⟨2, ![m, n]⟩).contr.Idx,
        A ((⟨[0], [0], [1], [1], [], [], w⟩ : DotDims ⟨2, ![k, m]⟩ ⟨2, ![k, n]⟩ ⟨2, ![m, n]⟩).lhsIdx (ix2 a b) q)
          * B ((⟨[0], [0], [1], [1], [], [], w⟩ : DotDims ⟨2, ![k, m]⟩ ⟨2, ![k, n]⟩ ⟨2, ![m, n]⟩).rhsIdx (ix2 a b) q)
      = ∑ c : Fin k, A (ix2 c a) * B (ix2 c b) := by
  rw [← Equiv.sum_comp (contrEquiv1 (⟨[0], [0], [1], [1], [], [], w⟩ : DotDims ⟨2, ![k, m]⟩ ⟨2, ![k, n]⟩ ⟨2, ![m, n]⟩) k rfl rfl).symm]
  refine Finset.sum_congr rfl fun c _ => ?_
  have c2 := contrEquiv1_symm_val (⟨[0], [0], [1], [1], [], [], w⟩ : DotDims ⟨2, ![k, m]⟩ ⟨2, ![k, n]⟩ ⟨2, ![m, n]⟩) k rfl rfl c
  have l2 : (⟨[0], [0], [1], [1], [], [], w⟩ : DotDims ⟨2, ![k, m]⟩ ⟨2, ![k, n]⟩ ⟨2, ![m, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![k, m]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.DotRead

end
-- ==== Proof.LibMatProd.lean ====
/- The textbook product of an m x k by a k x n matrix over the extended reals, (A B)(a, b) = Σ_c A(a, c) · B(c, b), and
   the two operations that compute it exactly there: the host's dot_general over a rows-by-columns dimension record,
   and a matmul with that record into a zero accumulator. Also: a row block of the product is the product of the
   row block. -/
import Idealize.ShloMosaic.Lib.ValueIdx
import Idealize.ShloMosaic.PureOps.Ideal.Laws
import proofs.«160736_j10969346474352_1_alg».proof.Proof.LibDotRead

noncomputable section

open scoped BigOperators

namespace Cert.MatProd

open Idealize.ShloMosaic Idealize.ShloMosaic.ValueIdx

/-- The matrix product, entry by entry. -/
def matProd {m k n : Nat} (A : (⟨2, ![m, k]⟩ : Shape).Idx → EReal) (B : (⟨2, ![k, n]⟩ : Shape).Idx → EReal) :
    (⟨2, ![m, n]⟩ : Shape).Idx → EReal :=
  fun i => ∑ c : Fin k, A (ix2 (i 0) c) * B (ix2 c (i 1))

theorem matProd_ix2 {m k n : Nat} (A : (⟨2, ![m, k]⟩ : Shape).Idx → EReal) (B : (⟨2, ![k, n]⟩ : Shape).Idx → EReal)
    (a : Fin m) (b : Fin n) : matProd A B (ix2 a b) = ∑ c : Fin k, A (ix2 a c) * B (ix2 c b) := rfl

/-- The host's dot_general over a rows-by-columns record is the matrix product: its contraction sum, with no
    accumulator, re-indexed by the contracted coordinate. -/
theorem hostDot_eq {m k n : Nat}
    (w : DotDims.WF ⟨2, ![m, k]⟩ ⟨2, ![k, n]⟩ ⟨2, ![m, n]⟩ [1] [0] [0] [1] [] [])
    (prec : Option ContractPrecision)
    (A : FVec Ideal ⟨2, ![m, k]⟩ .f32) (B : FVec Ideal ⟨2, ![k, n]⟩ .f32) :
    Host.dotGeneral (⟨[1], [0], [0], [1], [], [], w⟩ : DotDims ⟨2, ![m, k]⟩ ⟨2, ![k, n]⟩ ⟨2, ![m, n]⟩) prec A B = matProd A B := by
  funext i
  obtain ⟨a, b, rfl⟩ : ∃ (a : Fin m) (b : Fin n), i = ix2 a b := ⟨i 0, i 1, eq_ix2 i⟩
  refine (Ideal.dotGeneral_apply _ prec _ A B (ix2 a b)).trans ?_
  exact Cert.DotRead.sum_contr_plain w A B a b

/-- A matmul over a rows-by-columns record into the zero accumulator is the matrix product: zero plus the contraction
    sum. -/
theorem matmulZero_eq {m k n : Nat}
    (w : DotDims.WF ⟨2, ![m, k]⟩ ⟨2, ![k, n]⟩ ⟨2, ![m, n]⟩ [1] [0] [0] [1] [] [])
    (prec : Option ContractPrecision)
    (A : FVec Ideal ⟨2, ![m, k]⟩ .f32) (B : FVec Ideal ⟨2, ![k, n]⟩ .f32) :
    matmul (⟨[1], [0], [0], [1], [], [], w⟩ : DotDims ⟨2, ![m, k]⟩ ⟨2, ![k, n]⟩ ⟨2, ![m, n]⟩) prec A B
      (constant (F := Ideal) ⟨2, ![m, n]⟩ .f32 0x00000000#32) = matProd A B := by
  funext i
  obtain ⟨a, b, rfl⟩ : ∃ (a : Fin m) (b : Fin n), i = ix2 a b := ⟨i 0, i 1, eq_ix2 i⟩
  refine (Ideal.matmul_constant_zero_apply _ prec A B (ix2 a b)).trans ?_
  exact Cert.DotRead.sum_contr_plain w A B a b

end Cert.MatProd

end
-- ==== Proof.LibKeepdims.lean ====
/- Reading a keepdims row reduction at coordinates: a sum along the rows of an [a, b] array as a sum over the
   column coordinate, the [a] result cast to a column [a, 1], and that column broadcast back over [a, b]. These are
   the three layout steps of every `jnp.sum(x, axis=-1, keepdims=True)` followed by a broadcast against x. -/
import Idealize.ShloMosaic.Lib.ValueIdx
import Idealize.ShloMosaic.Lib.Pipeline.Value
import Idealize.ShloMosaic.PureOps.Ideal.Laws

noncomputable section

open scoped BigOperators

namespace Cert.Keepdims

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- On the extended reals a float sum along the rows of an `[a, b]` array, read at row `p`, is the sum over the
    column coordinate of the row's entries. The accumulator's two side conditions are taken as the printed programs
    carry them (any proofs of those two propositions). -/
theorem rowSum_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src (funext fun d => Fin.ext ?_)
  match d with
  | ⟨0, _⟩ => rfl
  | ⟨1, _⟩ => rfl

end Cert.Keepdims

end
-- ==== Proof.Spec.lean ====
/- The three dense stages of a graph convolution, each as one function of whole arrays, entry by entry, on the extended
   reals: the projection (a matrix product), the scaling of row e of the gathered messages by
   the edge weight held in row e of a column, and the bias added to every row. With them, the layout bridges to the forms
   a plain array program writes: a vector broadcast into a column and then over the rows' width, and a vector made a
   one-row matrix and then broadcast down the rows. No law of arithmetic is used: each side reads the same two entries
   and multiplies, or adds, them. -/
import Idealize.ShloMosaic.Lib.ValueIdx
import Idealize.ShloMosaic.Lib.ValueLayout
import Idealize.ShloMosaic.Lib.Pipeline.Value
import Idealize.ShloMosaic.PureOps.Ideal.Laws
import proofs.«160736_j10969346474352_1_alg».proof.Proof.LibMatProd
import proofs.«160736_j10969346474352_1_alg».proof.Proof.LibKeepdims

noncomputable section

namespace Cert.GraphConv

open Idealize.ShloMosaic Idealize.ShloMosaic.ValueIdx

/-- Row e of g times the single entry of row e of the column v. -/
def scaleRows {E D : Nat} (g : (⟨2, ![E, D]⟩ : Shape).Idx → EReal) (v : (⟨2, ![E, 1]⟩ : Shape).Idx → EReal) :
    (⟨2, ![E, D]⟩ : Shape).Idx → EReal :=
  fun i => g i * v (ix2 (n0 := E) (i 0) (0 : Fin 1))

theorem scaleRows_ix2 {E D : Nat} (g : (⟨2, ![E, D]⟩ : Shape).Idx → EReal) (v : (⟨2, ![E, 1]⟩ : Shape).Idx → EReal)
    (p : Fin E) (q : Fin D) : scaleRows g v (ix2 p q) = g (ix2 p q) * v (ix2 p (0 : Fin 1)) := rfl

/-- Entry (r, c) of s plus entry c of the vector b. -/
def addRow {N D : Nat} (s : (⟨2, ![N, D]⟩ : Shape).Idx → EReal) (b : (⟨1, ![D]⟩ : Shape).Idx → EReal) :
    (⟨2, ![N, D]⟩ : Shape).Idx → EReal :=
  fun i => s i + b (ix1 (n := D) (i 1))

theorem addRow_ix2 {N D : Nat} (s : (⟨2, ![N, D]⟩ : Shape).Idx → EReal) (b : (⟨1, ![D]⟩ : Shape).Idx → EReal)
    (p : Fin N) (q : Fin D) : addRow s b (ix2 p q) = s (ix2 p q) + b (ix1 q) := rfl

section Layout
variable {α : Type}

/-- A vector broadcast into a column along axis 0 reads, at (p, u), the vector at p. -/
theorem bcastCol_apply {E : Nat} (x : (⟨1, ![E]⟩ : Shape).Idx → α)
    (h : (⟨1, ![E]⟩ : Shape).BroadcastsInDim ⟨2, ![E, 1]⟩ ![0]) (p : Fin E) (u : Fin 1) :
    broadcastInDim ⟨2, ![E, 1]⟩ ![0] h x (ix2 p u) = x (ix1 p) := by
  refine broadcastInDim_apply ![0] h x (ix2 p u) (ix1 p) fun a => ?_
  match a with
  | ⟨0, _⟩ =>
    show p.val = if E = 1 then 0 else p.val
    split
    · have := p.isLt; omega
    · rfl

/-- A column broadcast over the width D reads, at (p, q), the column's entry in row p. -/
theorem bcastColOver_apply {E D : Nat} (v : (⟨2, ![E, 1]⟩ : Shape).Idx → α)
    (h : (⟨2, ![E, 1]⟩ : Shape).BroadcastsInDim ⟨2, ![E, D]⟩ ![0, 1]) (p : Fin E) (q : Fin D) :
    broadcastInDim ⟨2, ![E, D]⟩ ![0, 1] h v (ix2 p q) = v (ix2 p (0 : Fin 1)) := by
  refine broadcastInDim_apply ![0, 1] h v (ix2 p q) (ix2 p (0 : Fin 1)) fun a => ?_
  match a with
  | ⟨0, _⟩ =>
    show p.val = if E = 1 then 0 else p.val
    split
    · have := p.isLt; omega
    · rfl
  | ⟨1, _⟩ =>
    show 0 = if (1 : ℕ) = 1 then 0 else q.val
    rw [if_pos rfl]

/-- A vector made a one-row matrix along axis 1 reads, at (u, q), the vector at q. -/
theorem bcastRow_apply {D : Nat} (x : (⟨1, ![D]⟩ : Shape).Idx → α)
    (h : (⟨1, ![D]⟩ : Shape).BroadcastsInDim ⟨2, ![1, D]⟩ ![1]) (u : Fin 1) (q : Fin D) :
    broadcastInDim ⟨2, ![1, D]⟩ ![1] h x (ix2 u q) = x (ix1 q) := by
  refine broadcastInDim_apply ![1] h x (ix2 u q) (ix1 q) fun a => ?_
  match a with
  | ⟨0, _⟩ =>
    show q.val = if D = 1 then 0 else q.val
    split
    · have := q.isLt; omega
    · rfl

/-- A one-row matrix broadcast down N rows reads, at (p, q), the row's entry in column q. -/
theorem bcastRowDown_apply {N D : Nat} (v : (⟨2, ![1, D]⟩ : Shape).Idx → α)
    (h : (⟨2, ![1, D]⟩ : Shape).BroadcastsInDim ⟨2, ![N, D]⟩ ![0, 1]) (p : Fin N) (q : Fin D) :
    broadcastInDim ⟨2, ![N, D]⟩ ![0, 1] h v (ix2 p q) = v (ix2 (0 : Fin 1) q) := by
  refine broadcastInDim_apply ![0, 1] h v (ix2 p q) (ix2 (0 : Fin 1) q) fun a => ?_
  match a with
  | ⟨0, _⟩ =>
    show 0 = if (1 : ℕ) = 1 then 0 else p.val
    rw [if_pos rfl]
  | ⟨1, _⟩ =>
    show q.val = if D = 1 then 0 else q.val
    split
    · have := q.isLt; omega
    · rfl

end Layout

/-- The messages times the edge weights broadcast first into a column and then over the width is the row scaling by the
    weights cast to a column. -/
theorem mulf_bcast_eq {E D : Nat} (g : FVec Ideal ⟨2, ![E, D]⟩ .f32) (vals : FVec Ideal ⟨1, ![E]⟩ .f32)
    (h1 : (⟨1, ![E]⟩ : Shape).BroadcastsInDim ⟨2, ![E, 1]⟩ ![0])
    (h2 : (⟨2, ![E, 1]⟩ : Shape).BroadcastsInDim ⟨2, ![E, D]⟩ ![0, 1])
    (hc : (⟨1, ![E]⟩ : Shape).ShapeCasts ⟨2, ![E, 1]⟩) :
    mulf g (broadcastInDim ⟨2, ![E, D]⟩ ![0, 1] h2 (broadcastInDim ⟨2, ![E, 1]⟩ ![0] h1 vals))
      = scaleRows g (shapeCast ⟨2, ![E, 1]⟩ vals hc) := by
  funext i
  obtain ⟨p, q, rfl⟩ : ∃ (p : Fin E) (q : Fin D), i = ix2 p q := ⟨i 0, i 1, eq_ix2 i⟩
  rw [mulf_apply, bcastColOver_apply, bcastCol_apply, scaleRows_ix2, Cert.Keepdims.shapeCast_a_a1_apply]

/-- The sums plus the bias made a one-row matrix and broadcast down the rows is the bias added to every row. -/
theorem addf_bcast_eq {N D : Nat} (s : FVec Ideal ⟨2, ![N, D]⟩ .f32) (b : FVec Ideal ⟨1, ![D]⟩ .f32)
    (h1 : (⟨1, ![D]⟩ : Shape).BroadcastsInDim ⟨2, ![1, D]⟩ ![1])
    (h2 : (⟨2, ![1, D]⟩ : Shape).BroadcastsInDim ⟨2, ![N, D]⟩ ![0, 1]) :
    addf s (broadcastInDim ⟨2, ![N, D]⟩ ![0, 1] h2 (broadcastInDim ⟨2, ![1, D]⟩ ![1] h1 b)) = addRow s b := by
  funext i
  obtain ⟨p, q, rfl⟩ : ∃ (p : Fin N) (q : Fin D), i = ix2 p q := ⟨i 0, i 1, eq_ix2 i⟩
  rw [addf_apply, bcastRowDown_apply, bcastRow_apply, addRow_ix2]

end Cert.GraphConv

end
-- ==== Proof.Region0.lean ====
/- The projection region: 20 grid points, point t staging rows [5000 t, 5000 t + 5000) of x, the whole of W at every point,
   and writing back the same rows of the result. On the extended reals the change of format before the product is the
   identity and the product into the zero accumulator is the plain contraction sum, so entry (p, q) of a point's block is
   the sum over k of x-block (p, k) times W (k, q): the whole result array is the matrix product x W of the arrays the region
   finds, every row lying in exactly the block of the point r / 5000. -/
import proofs.«160736_j10969346474352_1_alg».proof.Proof.Gen.KernelIdeal.Frame
import proofs.«160736_j10969346474352_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Project

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The node features and the weight matrix as the region finds them, at their literal types. -/
abbrev feats (c : Dev nD) : S100000x128.Idx → EReal := V c main_arg0
abbrev wmat (c : Dev nD) : S128x128.Idx → EReal := V c main_arg1

theorem hz : (![0, 0] : Fin 2 → Nat) = fun _ => 0 := funext fun a => by fin_cases a <;> rfl

/-- The body's product at an entry: the contraction of row p of the features' block with column q of the weights. -/
theorem pay_apply (x0 : FVec Ideal S5000x128 .f32) (x1 : FVec Ideal S128x128 .f32) (p : Fin 5000) (q : Fin 128) :
    k0_pay1 (F := Ideal) x0 x1 (ix2 p q) = ∑ k : Fin 128, x0 (ix2 p k) * x1 (ix2 k q) := by
  unfold k0_pay1
  refine (Ideal.matmul_constant_zero_apply dot_S5000x128_S128x128_S5000x128_1_0_0_1_n_n none
    (truncf .bf16 x0 bitsLt_bf16_f32) (truncf .bf16 x1 bitsLt_bf16_f32) (ix2 p q)).trans ?_
  exact Cert.DotRead.sum_contr_plain dot_S5000x128_S128x128_S5000x128_1_0_0_1_n_n_wf x0 x1 p q

/-- The same at any entry of the block. -/
theorem pay_at (x0 : FVec Ideal S5000x128 .f32) (x1 : FVec Ideal S128x128 .f32) (j : S5000x128.Idx) :
    k0_pay1 (F := Ideal) x0 x1 j
      = ∑ k : Fin 128, x0 (ix2 (n0 := 5000) (j 0) k) * x1 (ix2 (n1 := 128) k (j 1)) := by
  obtain ⟨p, q, rfl⟩ : ∃ (p : Fin 5000) (q : Fin 128), j = ix2 p q := ⟨j 0, j 1, eq_ix2 j⟩
  exact pay_apply x0 x1 p q

/-- The printed index maps over the 20 points: the row windows' block index is (t, 0), the weight window's is (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the matrix product of the two arrays. -/
theorem flushed_eq (c : Dev nD) (t : Fin cfg0.N) :
    (dat0 V c).flushed 2 t
      = ((cfg0.win 2).blk t).view.read (Elt Ideal) (Cert.MatProd.matProd (feats V c) (wmat V c)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e0, e1, e2, e3, e4, e5⟩ := idx_facts t
  funext j
  show k0_pay1 (F := Ideal) (iblk0 V c 0 t) (iblk0 V c 1 t) j
    = Cert.MatProd.matProd (feats V c) (wmat V c) (((cfg0.win 2).blk t).view.emb j)
  refine (pay_at (iblk0 V c 0 t) (iblk0 V c 1 t) j).trans ?_
  show ∑ k : Fin 128, feats V c (((cfg0.win 0).blk t).view.emb (ix2 (n0 := 5000) (j 0) k))
        * wmat V c (((cfg0.win 1).blk t).view.emb (ix2 (n1 := 128) k (j 1)))
    = ∑ k : Fin 128, feats V c (ix2 (n0 := 100000) ((((cfg0.win 2).blk t).view.emb j) 0) k)
        * wmat V c (ix2 (n1 := 128) k ((((cfg0.win 2).blk t).view.emb j) 1))
  have hj0 : (j 0).val < 5000 := (j 0).isLt
  have hj1 : (j 1).val < 128 := (j 1).isLt
  refine Finset.sum_congr rfl fun k _ => ?_
  have hk : k.val < 128 := k.isLt
  have h0 : ((cfg0.win 0).blk t).view.emb (ix2 (n0 := 5000) (j 0) k)
      = ix2 (n0 := 100000) ((((cfg0.win 2).blk t).view.emb j) 0) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have h1 : ((cfg0.win 1).blk t).view.emb (ix2 (n1 := 128) k (j 1))
      = ix2 (n1 := 128) k ((((cfg0.win 2).blk t).view.emb j) 1) := by
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  rw [h0, h1]

/-- A row index is in point t's block iff each coordinate is in the block's range on its axis. -/
theorem mem_blk (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v0).slice (win0_2.rect t)).set ↔ _
  rw [View.set_slice_whole, Rect.mem_set_unit]
  exact Iff.rfl

/-- Every entry of the result lies in the block of the point r / 5000, which writes back. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨e0, e1, e2, e3, e4, e5⟩ := idx_facts t
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The result array after the region: the matrix product of the features and the weights it was entered with. -/
theorem final (c : Dev nD) :
    (dat0 V c).arrAt 2 cfg0.N = Cert.MatProd.matProd (feats V c) (wmat V c) :=
  (dat0 V c).arrAt_eq_of_cover 2 (Cert.MatProd.matProd (feats V c) (wmat V c)) (fun t _ => flushed_eq V c t) cover

end Cert.KernelIdeal.Project

end
-- ==== Proof.Region1.lean ====
/- The scaling region: 200 grid points, point t staging rows [8000 t, 8000 t + 8000) of the gathered messages and of the
   weight column, and writing back the same rows of the result. Each point's block is the messages' block times the
   weights' block broadcast over the width, so the whole result array is the row scaling of the two arrays the region
   finds: every row lies in exactly the block of the point r / 8000. -/
import proofs.«160736_j10969346474352_1_alg».proof.Proof.Gen.KernelIdeal.Frame
import proofs.«160736_j10969346474352_1_alg».proof.Proof.Spec
import Idealize.ShloMosaic.Lib.Pipeline.Value
import Idealize.ShloMosaic.Lib.ValueIdx

set_option maxRecDepth 16384

noncomputable section

namespace Cert.KernelIdeal.Scale

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The gathered messages and the weight column as the region finds them, at their literal types. -/
abbrev msgs (c : Dev nD) : S1600000x128.Idx → EReal := V c main_v7
abbrev wcol (c : Dev nD) : S1600000x1.Idx → EReal := V c main_v8

theorem hz : (![0, 0] : Fin 2 → Nat) = fun _ => 0 := funext fun a => by fin_cases a <;> rfl

/-- The body's product at an entry: the messages' entry times the weight of its row. -/
theorem pay_apply (x0 : FVec Ideal S8000x128 .f32) (x1 : FVec Ideal S8000x1 .f32) (p : Fin 8000) (q : Fin 128) :
    k1_pay1 (F := Ideal) x0 x1 (ix2 p q) = x0 (ix2 p q) * x1 (ix2 p (0 : Fin 1)) := by
  unfold k1_pay1
  show shapeCast S8000x128 x0 _ (ix2 p q) * broadcastTo S8000x128 (shapeCast S8000x1 x1 _) _ (ix2 p q) = _
  rw [shapeCast_self, shapeCast_self, Cert.Keepdims.broadcastTo_a1_ab_apply]

/-- The same at any entry of the block. -/
theorem pay_at (x0 : FVec Ideal S8000x128 .f32) (x1 : FVec Ideal S8000x1 .f32) (j : S8000x128.Idx) :
    k1_pay1 (F := Ideal) x0 x1 j = x0 j * x1 (ix2 (n0 := 8000) (j 0) (0 : Fin 1)) := by
  obtain ⟨p, q, rfl⟩ : ∃ (p : Fin 8000) (q : Fin 128), j = ix2 p q := ⟨j 0, j 1, eq_ix2 j⟩
  exact pay_apply x0 x1 p q

/-- The printed index maps over the 200 points: every window's block index is (t, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point t writes back is block t of the row scaling of the two arrays. -/
theorem flushed_eq (c : Dev nD) (t : Fin cfg1.N) :
    (dat1 V c).flushed 2 t
      = ((cfg1.win 2).blk t).view.read (Elt Ideal) (Cert.GraphConv.scaleRows (msgs V c) (wcol V c)) := by
  show (cfg1.win 2).cut (grid1.coords t) ((dat1 V c).after 2 t) = _
  rw [after1_2]
  unfold out1_2
  rw [View.canon_unit_zero hz]
  simp only [View.ld_unit_zero (S := S8000x128) hz, View.ld_unit_zero (S := S8000x1) hz]
  obtain ⟨e0, e1, e2, e3, e4, e5⟩ := idx_facts t
  funext j
  show k1_pay1 (F := Ideal) (iblk1 V c 0 t) (iblk1 V c 1 t) j
    = Cert.GraphConv.scaleRows (msgs V c) (wcol V c) (((cfg1.win 2).blk t).view.emb j)
  refine (pay_at (iblk1 V c 0 t) (iblk1 V c 1 t) j).trans ?_
  show msgs V c (((cfg1.win 0).blk t).view.emb j)
      * wcol V c (((cfg1.win 1).blk t).view.emb (ix2 (n0 := 8000) (j 0) (0 : Fin 1)))
    = msgs V c (((cfg1.win 2).blk t).view.emb j)
      * wcol V c (ix2 (n0 := 1600000) ((((cfg1.win 2).blk t).view.emb j) 0) (0 : Fin 1))
  have hj0 : (j 0).val < 8000 := (j 0).isLt
  have hj1 : (j 1).val < 128 := (j 1).isLt
  have h0 : ((cfg1.win 0).blk t).view.emb j = ((cfg1.win 2).blk t).view.emb j := by
    funext a; apply Fin.ext
    match a with
    | ⟨0, _⟩ => show win1_0.index t (0 : Fin 2) * 8000 + 1 * (j 0).val = win1_2.index t (0 : Fin 2) * 8000 + 1 * (j 0).val; omega
    | ⟨1, _⟩ => show win1_0.index t (1 : Fin 2) * 128 + 1 * (j 1).val = win1_2.index t (1 : Fin 2) * 128 + 1 * (j 1).val; omega
  have h1 : ((cfg1.win 1).blk t).view.emb (ix2 (n0 := 8000) (j 0) (0 : Fin 1))
      = ix2 (n0 := 1600000) ((((cfg1.win 2).blk t).view.emb j) 0) (0 : Fin 1) := by
    funext a; apply Fin.ext
    match a with
    | ⟨0, _⟩ => show win1_1.index t (0 : Fin 2) * 8000 + 1 * (j 0).val = win1_2.index t (0 : Fin 2) * 8000 + 1 * (j 0).val; omega
    | ⟨1, _⟩ => show win1_1.index t (1 : Fin 2) * 1 + 1 * 0 = 0; omega
  rw [h0, h1]

/-- A row index is in point t's block iff each coordinate is in the block's range on its axis. -/
theorem mem_blk (t : Fin cfg1.N) (i : S1600000x128.Idx) :
    i ∈ ((cfg1.win 2).blk t).view.set ↔ ∀ a : Fin 2, win1_2.index t a * S8000x128.size a ≤ (i a).val
      ∧ (i a).val < win1_2.index t a * S8000x128.size a + S8000x128.size a := by
  show i ∈ ((View.whole main_v9).slice (win1_2.rect t)).set ↔ _
  rw [View.set_slice_whole, Rect.mem_set_unit]
  exact Iff.rfl

/-- Every entry of the result lies in the block of the point r / 8000, which writes back. -/
theorem cover (i : S1600000x128.Idx) :
    ∃ t : Fin cfg1.N, (cfg1.win 2).flush t = true ∧ i ∈ ((cfg1.win 2).blk t).view.set := by
  have hi0 : (i 0).val < 1600000 := (i 0).isLt
  have hi1 : (i 1).val < 128 := (i 1).isLt
  have hN : cfg1.N = 200 := N_1
  obtain ⟨t, ht⟩ : ∃ t : Fin cfg1.N, t.val = (i 0).val / 8000 := ⟨⟨(i 0).val / 8000, by rw [hN]; omega⟩, rfl⟩
  obtain ⟨e0, e1, e2, e3, e4, e5⟩ := idx_facts t
  refine ⟨t, flush1_2 t, ?_⟩
  rw [mem_blk]
  intro a
  match a with
  | ⟨0, _⟩ => show win1_2.index t (0 : Fin 2) * 8000 ≤ (i 0).val ∧ (i 0).val < win1_2.index t (0 : Fin 2) * 8000 + 8000; omega
  | ⟨1, _⟩ => show win1_2.index t (1 : Fin 2) * 128 ≤ (i 1).val ∧ (i 1).val < win1_2.index t (1 : Fin 2) * 128 + 128; omega

/-- The result array after the region: the row scaling of the messages and the weight column it was entered with. -/
theorem final (c : Dev nD) :
    (dat1 V c).arrAt 2 cfg1.N = Cert.GraphConv.scaleRows (msgs V c) (wcol V c) :=
  (dat1 V c).arrAt_eq_of_cover 2 (Cert.GraphConv.scaleRows (msgs V c) (wcol V c)) (fun t _ => flushed_eq V c t) cover

end Cert.KernelIdeal.Scale

end
-- ==== Proof.Region2.lean ====
/- The bias region: 20 grid points, point t staging rows [5000 t, 5000 t + 5000) of the segment sums, the whole bias
   vector at every point, and writing back the same rows of the result. Each point's block is the sums' block plus the bias
   broadcast down the rows, so the whole result array is the bias added to every row of the array the region finds: every
   row lies in exactly the block of the point r / 5000. -/
import proofs.«160736_j10969346474352_1_alg».proof.Proof.Gen.KernelIdeal.Frame
import proofs.«160736_j10969346474352_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Bias

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The segment sums and the bias vector as the region finds them, at their literal types. -/
abbrev sums (c : Dev nD) : S100000x128.Idx → EReal := V c main_v12
abbrev bvec (c : Dev nD) : S128.Idx → EReal := V c main_arg2

theorem hz : (![0, 0] : Fin 2 → Nat) = fun _ => 0 := funext fun a => by fin_cases a <;> rfl
theorem hz1 : (![0] : Fin 1 → Nat) = fun _ => 0 := funext fun a => by fin_cases a; rfl

/-- The body's sum at an entry: the sums' entry plus the bias of its column. -/
theorem pay_apply (x0 : FVec Ideal S5000x128 .f32) (x1 : FVec Ideal S128 .f32) (p : Fin 5000) (q : Fin 128) :
    k2_pay1 (F := Ideal) x0 x1 (ix2 p q) = x0 (ix2 p q) + x1 (ix1 q) := by
  unfold k2_pay1
  show shapeCast S5000x128 x0 _ (ix2 p q) + broadcastTo S5000x128 (shapeCast S1x128 x1 _) _ (ix2 p q) = _
  rw [shapeCast_self, broadcastTo_1b_ab_apply, shapeCast_a_1a_apply]

/-- The same at any entry of the block. -/
theorem pay_at (x0 : FVec Ideal S5000x128 .f32) (x1 : FVec Ideal S128 .f32) (j : S5000x128.Idx) :
    k2_pay1 (F := Ideal) x0 x1 j = x0 j + x1 (ix1 (n := 128) (j 1)) := by
  obtain ⟨p, q, rfl⟩ : ∃ (p : Fin 5000) (q : Fin 128), j = ix2 p q := ⟨j 0, j 1, eq_ix2 j⟩
  exact pay_apply x0 x1 p q

/-- The printed index maps over the 20 points: the row windows' block index is (t, 0), the bias window's is 0. -/
theorem idx_facts : ∀ t : Fin cfg2.N,
    win2_0.index t (0 : Fin 2) = t.val ∧ win2_0.index t (1 : Fin 2) = 0
    ∧ win2_1.index t (0 : Fin 1) = 0
    ∧ win2_2.index t (0 : Fin 2) = t.val ∧ win2_2.index t (1 : Fin 2) = 0 :=
  (by decide +kernel : ∀ t : Fin grid2.N, _)

/-- What point t writes back is block t of the array with the bias added to every row. -/
theorem flushed_eq (c : Dev nD) (t : Fin cfg2.N) :
    (dat2 V c).flushed 2 t
      = ((cfg2.win 2).blk t).view.read (Elt Ideal) (Cert.GraphConv.addRow (sums V c) (bvec V c)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128) hz1]
  obtain ⟨e0, e1, e2, e3, e4⟩ := idx_facts t
  funext j
  show k2_pay1 (F := Ideal) (iblk2 V c 0 t) (iblk2 V c 1 t) j
    = Cert.GraphConv.addRow (sums V c) (bvec V c) (((cfg2.win 2).blk t).view.emb j)
  refine (pay_at (iblk2 V c 0 t) (iblk2 V c 1 t) j).trans ?_
  show sums V c (((cfg2.win 0).blk t).view.emb j)
      + bvec V c (((cfg2.win 1).blk t).view.emb (ix1 (n := 128) (j 1)))
    = sums V c (((cfg2.win 2).blk t).view.emb j)
      + bvec V c (ix1 (n := 128) ((((cfg2.win 2).blk t).view.emb j) 1))
  have hj0 : (j 0).val < 5000 := (j 0).isLt
  have hj1 : (j 1).val < 128 := (j 1).isLt
  have h0 : ((cfg2.win 0).blk t).view.emb j = ((cfg2.win 2).blk t).view.emb j := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * (j 1).val = win2_2.index t (1 : Fin 2) * 128 + 1 * (j 1).val; omega
  have h1 : ((cfg2.win 1).blk t).view.emb (ix1 (n := 128) (j 1))
      = ix1 (n := 128) ((((cfg2.win 2).blk t).view.emb j) 1) := by
    funext a; apply Fin.ext
    match a with
    | ⟨0, _⟩ => show win2_1.index t (0 : Fin 1) * 128 + 1 * (j 1).val = win2_2.index t (1 : Fin 2) * 128 + 1 * (j 1).val; omega
  rw [h0, h1]

/-- A row index is in point t's block iff each coordinate is in the block's range on its axis. -/
theorem mem_blk (t : Fin cfg2.N) (i : S100000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v13).slice (win2_2.rect t)).set ↔ _
  rw [View.set_slice_whole, Rect.mem_set_unit]
  exact Iff.rfl

/-- Every entry of the result lies in the block of the point r / 5000, which writes back. -/
theorem cover (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 20 := N_2
  obtain ⟨t, ht⟩ : ∃ t : Fin cfg2.N, t.val = (i 0).val / 5000 := ⟨⟨(i 0).val / 5000, by rw [hN]; omega⟩, rfl⟩
  obtain ⟨e0, e1, e2, e3, e4⟩ := idx_facts t
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- The result array after the region: the bias added to every row of the sums it was entered with. -/
theorem final (c : Dev nD) :
    (dat2 V c).arrAt 2 cfg2.N = Cert.GraphConv.addRow (sums V c) (bvec V c) :=
  (dat2 V c).arrAt_eq_of_cover 2 (Cert.GraphConv.addRow (sums V c) (bvec V c)) (fun t _ => flushed_eq V c t) cover

end Cert.KernelIdeal.Bias

end
-- ==== Proof.Whole.lean ====
/- The kernel program's result as one function of its six arguments, on the extended reals. The program is three grid
   regions with host operations between them, and the contents of the buffers at each boundary compose:
   the projection region leaves x W; the host wraps negative column ids by N, gathers the rows of x W at them and casts the
   edge weights to a column; the scaling region multiplies row e of the gathered rows by weight e; the host scatter-adds
   those rows into zeros at the row ids; the bias region adds b to every row. Nothing else writes any of these buffers,
   so the result buffer ends at that composition and the arguments end as launched. -/
import proofs.«160736_j10969346474352_1_alg».proof.Proof.KRun
import proofs.«160736_j10969346474352_1_alg».proof.Proof.Region0
import proofs.«160736_j10969346474352_1_alg».proof.Proof.Region1
import proofs.«160736_j10969346474352_1_alg».proof.Proof.Region2
import Idealize.ShloMosaic.Lib.StableHlo.Run

set_option maxRecDepth 16384

noncomputable section

namespace Cert.KernelIdeal.Whole

open Cert.KernelIdeal Cert.KernelIdeal.Gen Idealize.ShloMosaic Idealize.ShloMosaic.TcCoe Idealize.SL.Sem Idealize.ShloMosaic.ValueIdx
open Cert.GraphConv Cert.MatProd

/-- The gather's start indices: each column id, with N added when it is negative, laid out as a column. -/
def startIdx (col : IVec S1600000 32) : IVec S1600000x1 32 :=
  broadcastInDim S1600000x1 ![0] bcast_S1600000_S1600000x1_0
    (select (cmpi .slt col (broadcastInDim S1600000 ![] bcast_S_S1600000 (constantI S_ 32 0#32)))
      (addi col (broadcastInDim S1600000 ![] bcast_S_S1600000 (constantI S_ 32 100000#32))) col)

/-- The messages: row e is row startIdx e of x W, times the edge weight e. -/
def messages (x : FVec Ideal S100000x128 .f32) (W : FVec Ideal S128x128 .f32) (col : IVec S1600000 32)
    (vals : FVec Ideal S1600000 .f32) : FVec Ideal S1600000x128 .f32 :=
  scaleRows (Host.gather gather_S100000x128_S1600000x1_S1600000x128_1_0_n_n_0_1_1128 (matProd x W) (startIdx col))
    (shapeCast S1600000x1 vals shapeCasts_S1600000_S1600000x1)

/-- The graph convolution: the messages scatter-added into zeros at their row ids, plus the bias on every row. -/
def result (x : FVec Ideal S100000x128 .f32) (W : FVec Ideal S128x128 .f32) (b : FVec Ideal S128 .f32)
    (row col : IVec S1600000 32) (vals : FVec Ideal S1600000 .f32) : FVec Ideal S100000x128 .f32 :=
  addRow
    (Host.scatterAdd scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 row)
      (messages x W col vals))
    b

variable (m : (ℓ : Loc nD τ sig) → Buf (Elt Ideal) ℓ) (ρ : Dev nD → PrngReg)

/-! ## After the projection region -/

theorem W1_proj (c : Dev nD) : W1 m ρ c (Proc.devRef .tc main_v0)
    = matProd (m ((c : Thread nD τ).loc main_arg0)) (m ((c : Thread nD τ).loc main_arg1)) :=
  (W1_arr m ρ c 2).trans (Project.final (V0 m ρ) c)

theorem W1_arg2 (c : Dev nD) : W1 m ρ c (Proc.devRef .tc main_arg2) = m ((c : Thread nD τ).loc main_arg2) :=
  W1_of_ne m ρ c main_arg2 (by decide)
theorem W1_arg3 (c : Dev nD) : W1 m ρ c (Proc.devRef .tc main_arg3) = m ((c : Thread nD τ).loc main_arg3) :=
  W1_of_ne m ρ c main_arg3 (by decide)
theorem W1_arg4 (c : Dev nD) : W1 m ρ c (Proc.devRef .tc main_arg4) = m ((c : Thread nD τ).loc main_arg4) :=
  W1_of_ne m ρ c main_arg4 (by decide)
theorem W1_arg5 (c : Dev nD) : W1 m ρ c (Proc.devRef .tc main_arg5) = m ((c : Thread nD τ).loc main_arg5) :=
  W1_of_ne m ρ c main_arg5 (by decide)

/-! ## After the first host stretch -/

theorem W2_gathered (c : Dev nD) : W2 m ρ c (Proc.devRef .tc main_v7)
    = Host.gather gather_S100000x128_S1600000x1_S1600000x128_1_0_n_n_0_1_1128
        (matProd (m ((c : Thread nD τ).loc main_arg0)) (m ((c : Thread nD τ).loc main_arg1)))
        (startIdx (m ((c : Thread nD τ).loc main_arg4))) := by
  show StableHlo.after hostOps1 (W1 m ρ c) (Proc.devRef .tc main_v7) = _
  after_results
  rw [W1_proj, W1_arg4]
  rfl

theorem W2_weights (c : Dev nD) : W2 m ρ c (Proc.devRef .tc main_v8)
    = shapeCast S1600000x1 (m ((c : Thread nD τ).loc main_arg5)) shapeCasts_S1600000_S1600000x1 := by
  show StableHlo.after hostOps1 (W1 m ρ c) (Proc.devRef .tc main_v8) = _
  after_results
  rw [W1_arg5]
  rfl

theorem W2_arg2 (c : Dev nD) : W2 m ρ c (Proc.devRef .tc main_arg2) = m ((c : Thread nD τ).loc main_arg2) := by
  show StableHlo.after hostOps1 (W1 m ρ c) (Proc.devRef .tc main_arg2) = _
  after_results
  exact W1_arg2 m ρ c

theorem W2_arg3 (c : Dev nD) : W2 m ρ c (Proc.devRef .tc main_arg3) = m ((c : Thread nD τ).loc main_arg3) := by
  show StableHlo.after hostOps1 (W1 m ρ c) (Proc.devRef .tc main_arg3) = _
  after_results
  exact W1_arg3 m ρ c

/-! ## After the scaling region -/

theorem W3_messages (c : Dev nD) : W3 m ρ c (Proc.devRef .tc main_v9)
    = messages (m ((c : Thread nD τ).loc main_arg0)) (m ((c : Thread nD τ).loc main_arg1))
        (m ((c : Thread nD τ).loc main_arg4)) (m ((c : Thread nD τ).loc main_arg5)) := by
  refine (W3_arr m ρ c 2).trans ((Scale.final (V2 m ρ) c).trans ?_)
  show scaleRows (W2 m ρ c (Proc.devRef .tc main_v7)) (W2 m ρ c (Proc.devRef .tc main_v8)) = _
  rw [W2_gathered, W2_weights]
  rfl

theorem W3_arg2 (c : Dev nD) : W3 m ρ c (Proc.devRef .tc main_arg2) = m ((c : Thread nD τ).loc main_arg2) :=
  (W3_of_ne m ρ c main_arg2 (by decide)).trans (W2_arg2 m ρ c)
theorem W3_arg3 (c : Dev nD) : W3 m ρ c (Proc.devRef .tc main_arg3) = m ((c : Thread nD τ).loc main_arg3) :=
  (W3_of_ne m ρ c main_arg3 (by decide)).trans (W2_arg3 m ρ c)

/-! ## After the second host stretch -/

theorem W4_sums (c : Dev nD) : W4 m ρ c (Proc.devRef .tc main_v12)
    = Host.scatterAdd scatter_S100000x128_S1600000x1_S1600000x128_1_0_0_1
        (broadcastInDim S100000x128 ![] bcast_S_S100000x128 (constant (F := Ideal) S_ .f32 0x00000000#32))
        (broadcastInDim S1600000x1 ![0] bcast_S1600000_S1600000x1_0 (m ((c : Thread nD τ).loc main_arg3)))
        (messages (m ((c : Thread nD τ).loc main_arg0)) (m ((c : Thread nD τ).loc main_arg1))
          (m ((c : Thread nD τ).loc main_arg4)) (m ((c : Thread nD τ).loc main_arg5))) := by
  show StableHlo.after hostOps2 (W3 m ρ c) (Proc.devRef .tc main_v12) = _
  after_results
  rw [W3_messages, W3_arg3]

theorem W4_arg2 (c : Dev nD) : W4 m ρ c (Proc.devRef .tc main_arg2) = m ((c : Thread nD τ).loc main_arg2) := by
  show StableHlo.after hostOps2 (W3 m ρ c) (Proc.devRef .tc main_arg2) = _
  after_results
  exact W3_arg2 m ρ c

/-! ## After the bias region -/

theorem W5_result (c : Dev nD) : W5 m ρ c (Proc.devRef .tc main_v13)
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (W5_arr m ρ c 2).trans ((Bias.final (V4 m ρ) c).trans ?_)
  show addRow (W4 m ρ c (Proc.devRef .tc main_v12)) (W4 m ρ c (Proc.devRef .tc main_arg2)) = _
  rw [W4_sums, W4_arg2]
  rfl

/-! ## The run, read -/

/-- Every weakly fair execution of the kernel program terminates, nothing faulting, with the result buffer at the graph
    convolution of the launch contents of the arguments and the arguments unchanged. -/
theorem run : θ_run defs (onTc (τ := τ) (main (F := Ideal))) ⟨m, fun _ => 0, ρ⟩ (fun r => ∀ c : Dev nD,
      r.2.mem ((c.tc : Thread nD τ).loc main_v13)
        = result (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (W5_result m ρ c), (h c).2⟩) (run_named m ρ)

end Cert.KernelIdeal.Whole

end
-- ==== Proof.Bridge.lean ====
/- The reference's result term is the kernel program's function of the same six arrays. The reference projects with one
   whole matrix product where the kernel's region works row block by row block; it multiplies the gathered rows by the edge
   weights broadcast into a column and then over the width, where the kernel scales rows by a weight column; and it adds
   the bias made a one-row matrix and broadcast down the rows, where the kernel adds the bias to every row. Each pair is the
   same function of whole arrays, and the wrap of the column ids, the gather and the scatter-add are the same operations on
   both sides, so the two terms are equal without any law of arithmetic and without finiteness of the inputs. -/
import proofs.«160736_j10969346474352_1_alg».proof.Proof.Whole
import proofs.«160736_j10969346474352_1_alg».proof.Proof.Gen.ReferenceIdeal.Run

noncomputable section

namespace Cert.ReferenceIdeal.RefValue

open Cert.ReferenceIdeal Cert.ReferenceIdeal.Gen Idealize.ShloMosaic Idealize.ShloMosaic.TcCoe Idealize.SL.Sem
open Cert.GraphConv Cert.MatProd

theorem result_eq (x : FVec Ideal S100000x128 .f32) (W : FVec Ideal S128x128 .f32) (b : FVec Ideal S128 .f32)
    (row col : IVec S1600000 32) (vals : FVec Ideal S1600000 .f32) :
    addf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 row) (mulf (Host.gather gather_S100000x128_S1600000x1_S1600000x128_1_0_n_n_0_1_1128 (Host.dotGeneral dot_S100000x128_S128x128_S100000x128_1_0_0_1_n_n none x W) (broadcastInDim S1600000x1 ![0] bcast_S1600000_S1600000x1_0 (select (cmpi .slt col (broadcastInDim S1600000 ![] bcast_S_S1600000 (constantI S_ 32 0#32))) (addi col (broadcastInDim S1600000 ![] bcast_S_S1600000 (constantI S_ 32 100000#32))) col))) (broadcastInDim S1600000x128 ![0, 1] bcast_S1600000x1_S1600000x128_0_1 (broadcastInDim S1600000x1 ![0] bcast_S1600000_S1600000x1_0 vals)))) (broadcastInDim S100000x128 ![0, 1] bcast_S1x128_S100000x128_0_1 (broadcastInDim S1x128 ![1] bcast_S128_S1x128_1 b))
      = Cert.KernelIdeal.Whole.result x W b row col vals := by
  have hd : Host.dotGeneral dot_S100000x128_S128x128_S100000x128_1_0_0_1_n_n none x W = matProd x W :=
    hostDot_eq dot_S100000x128_S128x128_S100000x128_1_0_0_1_n_n_wf none x W
  rw [hd, mulf_bcast_eq _ vals _ _ Cert.KernelIdeal.Gen.shapeCasts_S1600000_S1600000x1, addf_bcast_eq]
  rfl

end Cert.ReferenceIdeal.RefValue

end
-- ==== Proof.lean ====
/- A graph convolution, out = segment_sum(support[col] * vals, row) + b with support = x W, computed by three grid
   regions (the projection, the scaling of the gathered rows, the bias) with the gather and the scatter-add between them on
   the host, against the same formula written as one plain array program. On the extended reals both end at one function
   of the six arguments: the projection by row blocks is the whole matrix product, and the two pointwise regions are the
   reference's broadcast forms read entry by entry. The kernel's frames are its generated ones; the reference's frame is its
   generated run with the result dropped; the idealization rewrote nothing. -/
import proofs.«160736_j10969346474352_1_alg».proof.Defs
import proofs.«160736_j10969346474352_1_alg».proof.Proof.Gen.Kernel
import proofs.«160736_j10969346474352_1_alg».proof.Proof.Gen.Kernel.Frame
import proofs.«160736_j10969346474352_1_alg».proof.Proof.Gen.KernelIdeal
import proofs.«160736_j10969346474352_1_alg».proof.Proof.Gen.KernelIdeal.Frame
import proofs.«160736_j10969346474352_1_alg».proof.Proof.Gen.ReferenceIdeal
import proofs.«160736_j10969346474352_1_alg».proof.Proof.Gen.ReferenceIdeal.Run
import proofs.«160736_j10969346474352_1_alg».proof.Proof.Gen.Pre_finite_inputs
import proofs.«160736_j10969346474352_1_alg».proof.Proof.Whole
import proofs.«160736_j10969346474352_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments the kernel program ends at the graph convolution of its launch contents and the
    reference at its own term of the same contents, which is that function. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2]
  exact Cert.ReferenceIdeal.RefValue.result_eq _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
